-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S512x32x256 : Shape := ⟨3, ![512, 32, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S512x32x256 : S_.BroadcastsInDim S512x32x256 (![] : Fin 0 → Fin S512x32x256.rank)
  reducesTo_S512x32x256_S_d0_1_2 : S512x32x256.ReducesTo [0, 1, 2] S_

variable [Facts]

def fn {F : FTy → Type} [FloatOps F] (main_arg0 : FVec F S8192x256 .f32) (main_arg1 : FVec F S512x32x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S512x32x256 .f32 := Host.absf main_arg1
  let main_cst_0 : FVec F S_ .f32 := constant S_ .f32 0x7F800000#32
  let main_v5 : FVec F S512x32x256 .f32 := broadcastInDim S512x32x256 ![] bcast_S_S512x32x256 main_cst_0
  let main_v6 : IVec S512x32x256 1 := cmpf .olt main_v4 main_v5
  let main_c_1 : IVec S_ 1 := constantI S_ 1 1#1
  let main_v7 : IVec S_ 1 := (fun x v => Host.reduce IntOp.andi x v reducesTo_S512x32x256_S_d0_1_2 h_S_) main_v6 main_c_1
  let main_v8 : IVec S_ 1 := andi main_v3 main_v7
  main_v8
-- ==== Kernel.lean ====
abbrev S8192x256 : Shape := ⟨2, ![8192, 256]⟩
abbrev S512x32x256 : Shape := ⟨3, ![512, 32, 256]⟩
abbrev S32x512x256 : Shape := ⟨3, ![32, 512, 256]⟩
abbrev S8192x512 : Shape := ⟨2, ![8192, 512]⟩
abbrev S512x256 : Shape := ⟨2, ![512, 256]⟩
abbrev S32x128x256 : Shape := ⟨3, ![32, 128, 256]⟩
abbrev S512x128 : Shape := ⟨2, ![512, 128]⟩
abbrev S4096x256 : Shape := ⟨2, ![4096, 256]⟩
abbrev S512x4096 : Shape := ⟨2, ![512, 4096]⟩
abbrev S512x32x128 : Shape := ⟨3, ![512, 32, 128]⟩

abbrev nBuf : Space → Nat
  | .hbm => 6
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S512x32x256, .f32⟩
  | .hbm, ⟨2, _⟩ => ⟨S8192x256, .bf16⟩
  | .hbm, ⟨3, _⟩ => ⟨S32x512x256, .f32⟩
  | .hbm, ⟨4, _⟩ => ⟨S32x512x256, .bf16⟩
  | .hbm, ⟨5, _⟩ => ⟨S8192x512, .f32⟩
  | .local _ .vmem, ⟨0, _⟩ => ⟨S512x256, .bf16⟩
  | .local _ .vmem, ⟨1, _⟩ => ⟨S512x256, .bf16⟩
  | .local _ .vmem, ⟨2, _⟩ => ⟨S32x128x256, .bf16⟩
  | .local _ .vmem, ⟨3, _⟩ => ⟨S32x128x256, .bf16⟩
  | .local _ .vmem, ⟨4, _⟩ => ⟨S512x128, .f32⟩
  | .local _ .vmem, ⟨5, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  transposes_S512x32x256_S32x512x256_1_0_2 : S512x32x256.Transposes [1, 0, 2] S32x512x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S32x128x256_S32x128x256_0_0_0 : ∀ a, (![0, 0, 0] : Fin 3 → Nat) a + S32x128x256.size a ≤ S32x128x256.size a
  h_S32x128x256 : 0 < S32x128x256.numel
  shapeCasts_S32x128x256_S32x128x256 : S32x128x256.ShapeCasts S32x128x256
  shapeCasts_S32x128x256_S4096x256 : S32x128x256.ShapeCasts S4096x256
  shapeCasts_S512x4096_S512x32x128 : S512x4096.ShapeCasts S512x32x128
  reduces_S512x32x128_S512x128 : S512x32x128.Reduces [1] S512x128
  inb_S512x128_S512x128_0_0 : ∀ a, (![0, 0] : Fin 2 → Nat) a + S512x128.size a ≤ S512x128.size a
  h_S512x128 : 0 < S512x128.numel
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x256.size a ≤ S32x512x256.size a
  hwx0_1 : ∀ i : grid0.Coords, EltTy.bits .bf16 = 32 ∨ (Rect.block (s := S32x512x256) S32x128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x512.size a
  hwx0_2 : ∀ i : grid0.Coords, EltTy.bits .f32 = 32 ∨ (Rect.block (s := S8192x512) S512x128.size (cc0_transform_2 i) (hinb0_2 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S512x32x256 : Shape := ⟨3, ![512, 32, 256]⟩
abbrev S8192x512x32 : Shape := ⟨3, ![8192, 512, 32]⟩
abbrev S_ : Shape := ⟨0, ![]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S512x32x256, .f32⟩
  | .hbm, ⟨2, _⟩ => ⟨S8192x512x32, .f32⟩
  | .hbm, ⟨3, _⟩ => ⟨S_, .f32⟩
  | .hbm, ⟨4, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  reducesTo_S8192x512x32_S8192x512_d2 : S8192x512x32.ReducesTo [2] S8192x512
  h_S_ : 0 < S_.numel
  dot_S8192x256_S512x32x256_S8192x512x32_1_2_0_01_n_n_wf : DotDims.WF S8192x256 S512x32x256 S8192x512x32 [1] [2] [0] [0, 1] [] []

variable [Facts₀]

def dot_S8192x256_S512x32x256_S8192x512x32_1_2_0_01_n_n : DotDims S8192x256 S512x32x256 S8192x512x32 where
  lhsContracting := [1]
  rhsContracting := [2]
  lhsNonContracting := [0]
  rhsNonContracting := [0, 1]
  lhsBatch := []
  rhsBatch := []
  wf := dot_S8192x256_S512x32x256_S8192x512x32_1_2_0_01_n_n_wf

class Facts : Prop extends Facts₀ where

variable [Facts]
-- ==== Proof.Body.lean ====
/-
  What one grid point's body stores, read at an index of its [512, 128] output block.

  The body loads a block `a : [512, 256]` of queries and a block `w : [32, 128, 256]` of shots (shot, class, feature),
  flattens the shots to 4096 rows (row `k·128 + q` is shot `k` of class `q`), multiplies `a` by the transpose of the
  flattened block into a zero accumulator, splits the 4096 columns back into (shot, class) and takes the maximum over
  the shot axis from −∞. At the ideal values the matrix product at `(p, k·128 + q)` is `Σ_d a(p, d) · w(k, q, d)`, and the
  reduction over the middle axis at `(p, q)` is the fold of `max` over `k` of those sums.
-/
import proofs.«163330_j36713380446638_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The operand indices of the body's matrix product -/

theorem lhs_row (i : S512x4096.Idx) (e : dot_S512x256_S4096x256_S512x4096_1_1_0_0_n_n.contr.Idx) :
    (dot_S512x256_S4096x256_S512x4096_1_1_0_0_n_n.lhsIdx i e 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem lhs_feat (i : S512x4096.Idx) (e : dot_S512x256_S4096x256_S512x4096_1_1_0_0_n_n.contr.Idx) :
    (dot_S512x256_S4096x256_S512x4096_1_1_0_0_n_n.lhsIdx i e 1).val = (e ⟨0, by decide⟩).val :=
  dot_S512x256_S4096x256_S512x4096_1_1_0_0_n_n.lhsIdx_val_of_single rfl i e
theorem rhs_row (i : S512x4096.Idx) (e : dot_S512x256_S4096x256_S512x4096_1_1_0_0_n_n.contr.Idx) :
    (dot_S512x256_S4096x256_S512x4096_1_1_0_0_n_n.rhsIdx i e 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem rhs_feat (i : S512x4096.Idx) (e : dot_S512x256_S4096x256_S512x4096_1_1_0_0_n_n.contr.Idx) :
    (dot_S512x256_S4096x256_S512x4096_1_1_0_0_n_n.rhsIdx i e 1).val = (e ⟨0, by decide⟩).val :=
  dot_S512x256_S4096x256_S512x4096_1_1_0_0_n_n.rhsIdx_val_of_single rfl i e

/-- The product of a [512, 256] block with the transpose of a [4096, 256] block, into a zero accumulator, at
    `(p, r)`: the sum over the 256 features of row `p` of the first times row `r` of the second. -/
theorem product_apply (a : FVec Ideal S512x256 .bf16) (w : FVec Ideal S4096x256 .bf16) (p : Fin 512) (r : Fin 4096) :
    matmul dot_S512x256_S4096x256_S512x4096_1_1_0_0_n_n none a w (constant (F := Ideal) S512x4096 .f32 0x00000000#32) (ix2 p r)
      = ∑ d : Fin 256, a (ix2 p d) * w (ix2 r d) := by
  simp only [matmul]
  rw [Ideal.matmul_constant_zero_apply, ← Equiv.sum_comp (contrEquiv1 dot_S512x256_S4096x256_S512x4096_1_1_0_0_n_n 256 rfl rfl).symm]
  refine Finset.sum_congr rfl fun d _ => ?_
  have hd := contrEquiv1_symm_val dot_S512x256_S4096x256_S512x4096_1_1_0_0_n_n 256 rfl rfl d
  have el : dot_S512x256_S4096x256_S512x4096_1_1_0_0_n_n.lhsIdx (ix2 p r) ((contrEquiv1 dot_S512x256_S4096x256_S512x4096_1_1_0_0_n_n 256 rfl rfl).symm d) = ix2 p d := funext fun x => Fin.ext (by
    match x with
    | ⟨0, _⟩ => exact lhs_row _ _
    | ⟨1, _⟩ => exact (lhs_feat _ _).trans hd)
  have er : dot_S512x256_S4096x256_S512x4096_1_1_0_0_n_n.rhsIdx (ix2 p r) ((contrEquiv1 dot_S512x256_S4096x256_S512x4096_1_1_0_0_n_n 256 rfl rfl).symm d) = ix2 r d := funext fun x => Fin.ext (by
    match x with
    | ⟨0, _⟩ => exact rhs_row _ _
    | ⟨1, _⟩ => exact (rhs_feat _ _).trans hd)
  rw [el, er]

/-! ## The two re-layings -/

/-- Row `k·128 + q` of the flattened shot block is shot `k` of class `q`. -/
theorem flat_apply (w : FVec Ideal S32x128x256 .bf16) (h : S32x128x256.ShapeCasts S4096x256)
    (k : Fin 32) (q : Fin 128) (d : Fin 256) (r : Fin 4096) (hr : r.val = k.val * 128 + q.val) :
    shapeCast S4096x256 w h (ix2 r d) = w (ix3 k q d) :=
  shapeCast_apply w h _ _ (by
    rw [Shape.rowMajor_val_three, Shape.rowMajor_val_two]
    show (k.val * 128 + q.val) * 256 + d.val = r.val * 256 + d.val
    rw [hr])

/-- Entry `(p, k, q)` of the product split into (shot, class) columns is its entry `(p, k·128 + q)`. -/
theorem split_apply (v : FVec Ideal S512x4096 .f32) (h : S512x4096.ShapeCasts S512x32x128)
    (p : Fin 512) (k : Fin 32) (q : Fin 128) (r : Fin 4096) (hr : r.val = k.val * 128 + q.val) :
    shapeCast S512x32x128 v h (ix3 p k q) = v (ix2 p r) :=
  shapeCast_apply v h _ _ (by
    rw [Shape.rowMajor_val_three, Shape.rowMajor_val_two]
    show p.val * 4096 + r.val = (p.val * 32 + k.val) * 128 + q.val
    rw [hr]; omega)

/-! ## The payload at an index -/

/-- THE BODY'S STORE at `(p, q)`: the maximum over the 32 shots, from −∞, of the inner product of query row `p` with
    shot `k` of class column `q`. -/
theorem payload_apply (a : FVec Ideal S512x256 .bf16) (w : FVec Ideal S32x128x256 .bf16) (p : Fin 512) (q : Fin 128) :
    k0_pay1 (F := Ideal) a w (ix2 p q)
      = (Finset.univ : Finset (Fin 32)).fold max (Ideal.ofBits .f32 0xFF800000#32)
          (fun k => ∑ d : Fin 256, a (ix2 p d) * w (ix3 k q d)) := by
  unfold k0_pay1
  dsimp only
  refine (Ideal.multiReduction_maximumf_single _ _ reduces_S512x32x128_S512x128 _ _ (ix2 p q)).trans ?_
  refine Finset.fold_congr fun k _ => ?_
  have hk : k.val < 32 := k.isLt
  have hr : k.val * 128 + q.val < 4096 := by have := q.isLt; omega
  have hl : reduces_S512x32x128_S512x128.lift (ix2 p q) k = ix3 p k q := funext fun x => Fin.ext (by
    match x with
    | ⟨0, _⟩ => rfl
    | ⟨1, _⟩ => rfl
    | ⟨2, _⟩ => rfl)
  show shapeCast S512x32x128 _ _ (reduces_S512x32x128_S512x128.lift (ix2 p q) k) = _
  rw [hl]
  refine (split_apply _ _ p k q ⟨k.val * 128 + q.val, hr⟩ rfl).trans ?_
  refine (product_apply _ _ p ⟨k.val * 128 + q.val, hr⟩).trans ?_
  refine Finset.sum_congr rfl fun d _ => ?_
  rw [shapeCast_self, shapeCast_self, flat_apply w _ k q d ⟨k.val * 128 + q.val, hr⟩ rfl]

end Cert.KernelIdeal.Body

end
-- ==== Proof.Spec.lean ====
/-
  The function both programs compute, stated once over literal shapes and no program.

  For a query matrix `q : [8192, 256]` and a support tensor `s : [512, 32, 256]` (class, shot, feature) the result at
  `(b, c)` is the best inner product of query `b` with any of the 32 shots of class `c`:

      best q s (b, c) = max (−∞) (max over k < 32 of  Σ_{d < 256} q(b, d) · s(c, k, d)).

  The maximum is a `Finset.fold` of `max` from the pattern `0xFF800000` (which denotes −∞, the bottom of the extended
  reals), so the order in which either program visits the shots is immaterial; the sum is a sum over `Fin 256`, so the
  order of accumulation is immaterial too. Nothing here needs the inputs to be finite.
-/
import Idealize.ShloMosaic.PureOps.Ideal
import Idealize.ShloMosaic.Lib.ValueIdx

noncomputable section

namespace Cert.ShotMax

open Idealize.ShloMosaic Idealize.ShloMosaic.ValueIdx

/-- The inner product of query `b` with shot `k` of class `c`. -/
def sim (q : (⟨2, ![8192, 256]⟩ : Shape).Idx → EReal) (s : (⟨3, ![512, 32, 256]⟩ : Shape).Idx → EReal)
    (b : Fin 8192) (c : Fin 512) (k : Fin 32) : EReal :=
  ∑ d : Fin 256, q (ix2 b d) * s (ix3 c k d)

/-- The best similarity of each query with each class: the maximum over the class's 32 shots, from −∞. -/
def best (q : (⟨2, ![8192, 256]⟩ : Shape).Idx → EReal) (s : (⟨3, ![512, 32, 256]⟩ : Shape).Idx → EReal) :
    (⟨2, ![8192, 512]⟩ : Shape).Idx → EReal :=
  fun j => (Finset.univ : Finset (Fin 32)).fold max (Ideal.ofBits .f32 0xFF800000#32) (fun k => sim q s (j 0) (j 1) k)

end Cert.ShotMax

end
-- ==== Proof.Arrays.lean ====
/-
  From the blocks to the whole array: after the idealized kernel's run the result array is `ShotMax.best` of the two
  argument arrays.

  Before the region @main narrows the queries to bf16 (the identity at the ideal values) and lays the supports out as
  (shot, class, feature) — a transpose of the first two axes, then the same narrowing. Grid point `t = (i, j)` reads
  query rows `512·i … 512·i + 511`, all 32 shots of classes `128·j … 128·j + 127`, and writes the [512, 128] block
  `(i, j)` of the result. By `Body.payload_apply` entry `(p, q)` of what it writes is the best similarity of query
  `512·i + p` with class `128·j + q`: block `(i, j)` of `best`. The 16 × 4 blocks tile the [8192, 512] result, the
  block that holds `(b, c)` being `(b / 512, c / 128)`, so the array ends as `best` everywhere.
-/
import proofs.«163330_j36713380446638_1_alg».proof.Proof.Gen.KernelIdeal.Value
import proofs.«163330_j36713380446638_1_alg».proof.Proof.Body
import proofs.«163330_j36713380446638_1_alg».proof.Proof.Spec
import Idealize.ShloMosaic.Lib.StableHlo.Run
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

/-- The query array as the region finds it: the argument, narrowed. -/
theorem queries_eq (c : Dev nD) :
    (V m c main_v0 : S8192x256.Idx → EReal) = truncf (F := Ideal) .bf16 (m ((c : Thread nD τ).loc main_arg0)) bitsLt_bf16_f32 := by
  dsimp only [V, hostOps0]; after_results

/-- The support array as the region finds it: the argument with its first two axes exchanged, narrowed. -/
theorem shots_eq (c : Dev nD) :
    (V m c main_v2 : S32x512x256.Idx → EReal)
      = truncf (F := Ideal) .bf16 (transpose S32x512x256 [1, 0, 2] (m ((c : Thread nD τ).loc main_arg1)) transposes_S512x32x256_S32x512x256_1_0_2) bitsLt_bf16_f32 := by
  dsimp only [V, hostOps0]; after_results

/-- At the ideal values the narrowing is the identity: the region's query array is the argument, entry by entry. -/
theorem queries_apply (c : Dev nD) (b : Fin 8192) (d : Fin 256) :
    (V m c main_v0 : S8192x256.Idx → EReal) (ix2 b d) = m ((c : Thread nD τ).loc main_arg0) (ix2 b d) :=
  congrFun (queries_eq m c) _

/-- Entry (shot `k`, class `cl`, feature `d`) of the region's support array is the argument's (class, shot, feature) entry. -/
theorem shots_apply (c : Dev nD) (k : Fin 32) (cl : Fin 512) (d : Fin 256) :
    (V m c main_v2 : S32x512x256.Idx → EReal) (ix3 k cl d) = m ((c : Thread nD τ).loc main_arg1) (ix3 cl k d) :=
  (congrFun (shots_eq m c) _).trans
    (transpose_apply _ _ _ _ (ix3 cl k d) fun a => match a with | ⟨0, _⟩ => rfl | ⟨1, _⟩ => rfl | ⟨2, _⟩ => rfl)

/-! ## The printed index maps over the 64 grid points -/

theorem zero2 : (![0, 0] : Fin 2 → Nat) = fun _ => 0 := funext fun a => by fin_cases a <;> rfl
theorem zero3 : (![0, 0, 0] : Fin 3 → Nat) = fun _ => 0 := funext fun a => by fin_cases a <;> rfl

/-- The query window follows the result's row block and takes every feature; the support window takes every shot and
    feature and follows the result's column block; the result's block indices stay below 16 and 4. -/
theorem block_maps : ∀ t : Fin cfg0.N, win0_0.index t (0 : Fin 2) = win0_2.index t (0 : Fin 2)
    ∧ win0_0.index t (1 : Fin 2) = 0
    ∧ win0_1.index t (0 : Fin 3) = 0
    ∧ win0_1.index t (1 : Fin 3) = win0_2.index t (1 : Fin 2)
    ∧ win0_1.index t (2 : Fin 3) = 0
    ∧ win0_2.index t (0 : Fin 2) ≤ 15
    ∧ win0_2.index t (1 : Fin 2) ≤ 3 :=
  (by decide +kernel : ∀ t : Fin grid0.N, _)

/-- Every (row block, column block) pair is some grid point's. -/
theorem block_onto : ∀ (i : Fin 16) (j : Fin 4), ∃ t : Fin cfg0.N, win0_2.index t = ![i.val, j.val] :=
  (by decide +kernel : ∀ (i : Fin 16) (j : Fin 4), ∃ t : Fin grid0.N, win0_2.index t = ![i.val, j.val])

/-! ## The input blocks at a point, entry by entry -/

/-- Row `p` of the query block at point `t` is query `512·i + p`, `i` the point's row block. -/
theorem query_block (c : Dev nD) (t : Fin cfg0.N) (p : Fin 512) (d : Fin 256) (b : Fin 8192)
    (hb : b.val = win0_2.index t (0 : Fin 2) * 512 + p.val) :
    iblk m c 0 t (ix2 p d) = m ((c : Thread nD τ).loc main_arg0) (ix2 b d) := by
  obtain ⟨e0, e1, -, -, -, -, -⟩ := block_maps t
  refine Eq.trans ?_ (queries_apply m c b d)
  show (V m c main_v0 : S8192x256.Idx → EReal) (((cfg0.win 0).blk t).view.emb (ix2 p d)) = _
  refine congrArg _ (funext fun a => Fin.ext ?_)
  match a with
  | ⟨0, _⟩ => show win0_0.index t (0 : Fin 2) * 512 + 1 * p.val = b.val; omega
  | ⟨1, _⟩ => show win0_0.index t (1 : Fin 2) * 256 + 1 * d.val = d.val; omega

/-- Entry (shot `k`, column `q`) of the support block at point `t` is shot `k` of class `128·j + q`, `j` the point's
    column block. -/
theorem shot_block (c : Dev nD) (t : Fin cfg0.N) (k : Fin 32) (q : Fin 128) (d : Fin 256) (cl : Fin 512)
    (hc : cl.val = win0_2.index t (1 : Fin 2) * 128 + q.val) :
    iblk m c 1 t (ix3 k q d) = m ((c : Thread nD τ).loc main_arg1) (ix3 cl k d) := by
  obtain ⟨-, -, e2, e3, e4, -, -⟩ := block_maps t
  refine Eq.trans ?_ (shots_apply m c k cl d)
  show (V m c main_v2 : S32x512x256.Idx → EReal) (((cfg0.win 1).blk t).view.emb (ix3 k q d)) = _
  refine congrArg _ (funext fun a => Fin.ext ?_)
  match a with
  | ⟨0, _⟩ => show win0_1.index t (0 : Fin 3) * 32 + 1 * k.val = k.val; omega
  | ⟨1, _⟩ => show win0_1.index t (1 : Fin 3) * 128 + 1 * q.val = cl.val; omega
  | ⟨2, _⟩ => show win0_1.index t (2 : Fin 3) * 256 + 1 * d.val = d.val; omega

/-! ## What a point writes back -/

/-- WHAT POINT `t` WRITES BACK is block `t` of `best` of the two argument arrays. -/
theorem flushed_eq (c : Dev nD) (t : Fin cfg0.N) :
    (dats m 0 c).flushed 2 t
      = ((cfg0.win 2).blk t).view.read (Elt Ideal)
          (Cert.ShotMax.best (m ((c : Thread nD τ).loc main_arg0)) (m ((c : Thread nD τ).loc main_arg1))) := by
  rw [Cert.KernelIdeal.Value.flushed2]
  unfold out0_2
  rw [View.canon_unit_zero zero2]
  simp only [View.ld_unit_zero (S := S512x256) zero2, View.ld_unit_zero (S := S32x128x256) zero3]
  obtain ⟨-, -, -, -, -, l0, l1⟩ := block_maps t
  funext y
  obtain ⟨p, q, rfl⟩ : ∃ (p : Fin 512) (q : Fin 128), y = ix2 p q := ⟨y 0, y 1, eq_ix2 y⟩
  have hb : win0_2.index t (0 : Fin 2) * 512 + p.val < 8192 := by have := p.isLt; omega
  have hc : win0_2.index t (1 : Fin 2) * 128 + q.val < 512 := by have := q.isLt; omega
  have hy : ((cfg0.win 2).blk t).view.emb (ix2 p q)
      = ix2 (⟨win0_2.index t (0 : Fin 2) * 512 + p.val, hb⟩ : Fin 8192) (⟨win0_2.index t (1 : Fin 2) * 128 + q.val, hc⟩ : Fin 512) :=
    funext fun a => Fin.ext (by
      match a with
      | ⟨0, _⟩ => show win0_2.index t (0 : Fin 2) * 512 + 1 * p.val = win0_2.index t (0 : Fin 2) * 512 + p.val; omega
      | ⟨1, _⟩ => show win0_2.index t (1 : Fin 2) * 128 + 1 * q.val = win0_2.index t (1 : Fin 2) * 128 + q.val; omega)
  show k0_pay1 (F := Ideal) (iblk m c 0 t) (iblk m c 1 t) (ix2 p q)
      = Cert.ShotMax.best _ _ (((cfg0.win 2).blk t).view.emb (ix2 p q))
  rw [hy]
  refine (Cert.KernelIdeal.Body.payload_apply (iblk m c 0 t) (iblk m c 1 t) p q).trans ?_
  unfold Cert.ShotMax.best Cert.ShotMax.sim
  refine Finset.fold_congr fun k _ => Finset.sum_congr rfl fun d _ => ?_
  rw [query_block m c t p d ⟨_, hb⟩ rfl, shot_block m c t k q d ⟨_, hc⟩ rfl]

/-! ## The blocks tile the result -/

/-- An index of the result is in point `t`'s block iff each coordinate is in the block's range on its axis. -/
theorem mem_block (t : Fin cfg0.N) (i : S8192x512.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v3).slice (win0_2.rect t)).set ↔ _
  rw [View.set_slice_whole, Rect.mem_set_unit]
  exact Iff.rfl

/-- Entry `(b, c)` of the result lies in the block of the point whose block indices are `(b / 512, c / 128)`. -/
theorem covered (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ := block_onto ⟨(i 0).val / 512, by omega⟩ ⟨(i 1).val / 128, by omega⟩
  have q0 : win0_2.index t (0 : Fin 2) = (i 0).val / 512 := congrFun ht 0
  have q1 : win0_2.index t (1 : Fin 2) = (i 1).val / 128 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- THE RESULT ARRAY after the run is `best` of the two argument arrays. -/
theorem final (c : Dev nD) :
    (dats m 0 c).arrAt 2 cfg0.N
      = Cert.ShotMax.best (m ((c : Thread nD τ).loc main_arg0)) (m ((c : Thread nD τ).loc main_arg1)) :=
  (dats m 0 c).arrAt_eq_of_cover 2 _ (fun t _ => flushed_eq m c t) covered

/-! ## The run, read -/

/-- Every weakly fair execution of the idealized kernel ends with the result array at `best` of the arguments and the
    arguments unchanged. -/
theorem run : θ_run defs (onTc (τ := τ) (main (F := Ideal))) ⟨m, fun _ => 0, ρ⟩ fun r => ∀ c : Dev nD,
      r.2.mem ((c : Thread nD τ).loc main_v3)
        = Cert.ShotMax.best (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Arrays

end
-- ==== Proof.RefSide.lean ====
/-
  The reference computes `ShotMax.best`.

  The reference contracts the feature axis of the queries [8192, 256] with that of the supports [512, 32, 256] into
  [8192, 512, 32] — entry `(b, c, k)` is `Σ_d x(b, d) · y(c, k, d)` — and reduces the last axis by `maximum` from the
  constant −∞. A one-axis reduction by a commutative, associative operation is the fold of that operation over the
  axis's coordinates, so entry `(b, c)` of the result is the fold of `max` over `k` of those sums, from −∞.
-/
import proofs.«163330_j36713380446638_1_alg».proof.Proof.Gen.ReferenceIdeal.Read
import proofs.«163330_j36713380446638_1_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The shot axis is the one the reference's reduction drops. -/
theorem reduces_shots : S8192x512x32.Reduces [2] S8192x512 := by decide

/-- The reference's result, at the ideal values, is the best similarity over the shots. -/
theorem ref_eq_best (x : (⟨S8192x256, .f32⟩ : BufTy).Contents (Elt Ideal)) (y : (⟨S512x32x256, .f32⟩ : BufTy).Contents (Elt Ideal)) :
    val_main_v1 (F := Ideal) x y = Cert.ShotMax.best x y := by
  funext j
  unfold val_main_v1
  refine (Host.reduce_eq_fold_single FloatOps.maximumf _ _ reducesTo_S8192x512x32_S8192x512_d2 reduces_shots h_S_ j).trans ?_
  unfold Cert.ShotMax.best
  show (Finset.univ : Finset (Fin 32)).fold max (Ideal.ofBits .f32 0xFF800000#32) _ = _
  refine Finset.fold_congr fun k _ => ?_
  show val_main_v0 (F := Ideal) x y (reduces_shots.lift j k) = _
  rw [val_main_v0_apply]
  unfold Cert.ShotMax.sim
  refine Finset.sum_congr rfl fun d _ => ?_
  have el : lidx_main_v0 (reduces_shots.lift j k) d = ix2 (j 0) d := funext fun a => Fin.ext (by
    match a with
    | ⟨0, _⟩ => rfl
    | ⟨1, _⟩ => rfl)
  have er : ridx_main_v0 (reduces_shots.lift j k) d = ix3 (j 1) k d := funext fun a => Fin.ext (by
    match a with
    | ⟨0, _⟩ => rfl
    | ⟨1, _⟩ => rfl
    | ⟨2, _⟩ => rfl)
  rw [el, er]
  rfl

end Cert.ReferenceIdeal.RefValue

end
-- ==== Proof.lean ====
/-
  The certificate of a nearest-class similarity kernel: for queries `x1 : [8192, 256]` and supports
  `x2 : [512, 32, 256]` (class, shot, feature) both programs compute

      out(b, c) = max over the 32 shots k of  Σ_{d < 256} x1(b, d) · x2(c, k, d),

  the maximum taken from −∞.

  The kernel narrows both inputs to bf16 and exchanges the class and shot axes of the supports on the host, then on a
  16 × 4 grid multiplies a [512, 256] block of queries by the transpose of a [32·128, 256] block of supports on the
  matrix unit, splits the 4096 columns into (shot, class) and reduces the shot axis by `maximum`. The reference
  contracts the feature axes into [8192, 512, 32] and reduces the last axis by `maximum`. At the ideal values a change
  of float format is the identity, the matrix product into a zero accumulator and the host's contraction are the same
  finite sum of products, and both reductions are the fold of `max` over the 32 shots from −∞; the tiling and the two
  layouts only rename indices. So both result arrays are `ShotMax.best x1 x2` (Proof/Spec.lean): the kernel's by
  Proof/Body.lean (one point's store at an index) and Proof/Arrays.lean (the blocks tile the array), the reference's by
  Proof/RefSide.lean. Only commutativity and associativity of `max` and of finite sums are used, so the precondition
  (finite inputs) is never opened. The idealization rewrote nothing, so `preserves` has no conjunct.
-/
import proofs.«163330_j36713380446638_1_alg».proof.Defs
import proofs.«163330_j36713380446638_1_alg».proof.Proof.Gen.Kernel
import proofs.«163330_j36713380446638_1_alg».proof.Proof.Gen.Kernel.Skeleton
import proofs.«163330_j36713380446638_1_alg».proof.Proof.Gen.Kernel.Launch
import proofs.«163330_j36713380446638_1_alg».proof.Proof.Gen.Kernel.Points
import proofs.«163330_j36713380446638_1_alg».proof.Proof.Gen.Kernel.Frame
import proofs.«163330_j36713380446638_1_alg».proof.Proof.Gen.KernelIdeal
import proofs.«163330_j36713380446638_1_alg».proof.Proof.Gen.KernelIdeal.Skeleton
import proofs.«163330_j36713380446638_1_alg».proof.Proof.Gen.KernelIdeal.Launch
import proofs.«163330_j36713380446638_1_alg».proof.Proof.Gen.KernelIdeal.Points
import proofs.«163330_j36713380446638_1_alg».proof.Proof.Gen.KernelIdeal.Frame
import proofs.«163330_j36713380446638_1_alg».proof.Proof.Gen.ReferenceIdeal
import proofs.«163330_j36713380446638_1_alg».proof.Proof.Gen.Pre_finite_inputs
import proofs.«163330_j36713380446638_1_alg».proof.Proof.Gen.KernelIdeal.Value
import proofs.«163330_j36713380446638_1_alg».proof.Proof.Gen.ReferenceIdeal.Run
import proofs.«163330_j36713380446638_1_alg».proof.Proof.Gen.ReferenceIdeal.Read
import Idealize.ShloMosaic.Adequacy
import Idealize.ShloMosaic.Init
import proofs.«163330_j36713380446638_1_alg».proof.Proof.Arrays
import proofs.«163330_j36713380446638_1_alg».proof.Proof.RefSide

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is three host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, the idealized kernel and the idealized reference both end with the
    result array at `ShotMax.best` of the arguments. -/
theorem algebraic : Cert.algebraic_KernelIdeal_ReferenceIdeal := by
  intro m ρ m' ρ' _ hagree
  refine ⟨_, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq_best, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
